-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part4 {F : FTy → Type} [FloatOps F] (main_arg14 : FVec F S1x2048 .f32) (main_v63 : IVec S_ 1) (main_v67 : IVec S_ 1) : IVec S_ 1 :=
  let main_v68 : IVec S_ 1 := andi main_v63 main_v67
  let main_v69 : FVec F S1x2048 .f32 := Host.absf main_arg14
  let main_cst_26 : FVec F S_ .f32 := constant S_ .f32 0x7F800000#32
  let main_v70 : FVec F S1x2048 .f32 := broadcastInDim S1x2048 ![] bcast_S_S1x2048 main_cst_26
  let main_v71 : IVec S1x2048 1 := cmpf .olt main_v69 main_v70
  let main_c_27 : IVec S_ 1 := constantI S_ 1 1#1
  let main_v72 : IVec S_ 1 := (fun x v => Host.reduce IntOp.andi x v reducesTo_S1x2048_S_d0_1 h_S_) main_v71 main_c_27
  let main_v73 : IVec S_ 1 := andi main_v68 main_v72
  main_v73

def fn_part3 {F : FTy → Type} [FloatOps F] (main_arg11 : FVec F S1x2048 .f32) (main_arg12 : FVec F S1x2048 .f32) (main_arg13 : FVec F S1x2048 .f32) (main_arg14 : FVec F S1x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S1x2048 .f32 := Host.absf main_arg11
  let main_cst_20 : FVec F S_ .f32 := constant S_ .f32 0x7F800000#32
  let main_v55 : FVec F S1x2048 .f32 := broadcastInDim S1x2048 ![] bcast_S_S1x2048 main_cst_20
  let main_v56 : IVec S1x2048 1 := cmpf .olt main_v54 main_v55
  let main_c_21 : IVec S_ 1 := constantI S_ 1 1#1
  let main_v57 : IVec S_ 1 := (fun x v => Host.reduce IntOp.andi x v reducesTo_S1x2048_S_d0_1 h_S_) main_v56 main_c_21
  let main_v58 : IVec S_ 1 := andi main_v53 main_v57
  let main_v59 : FVec F S1x2048 .f32 := Host.absf main_arg12
  let main_cst_22 : FVec F S_ .f32 := constant S_ .f32 0x7F800000#32
  let main_v60 : FVec F S1x2048 .f32 := broadcastInDim S1x2048 ![] bcast_S_S1x2048 main_cst_22
  let main_v61 : IVec S1x2048 1 := cmpf .olt main_v59 main_v60
  let main_c_23 : IVec S_ 1 := constantI S_ 1 1#1
  let main_v62 : IVec S_ 1 := (fun x v => Host.reduce IntOp.andi x v reducesTo_S1x2048_S_d0_1 h_S_) main_v61 main_c_23
  let main_v63 : IVec S_ 1 := andi main_v58 main_v62
  let main_v64 : FVec F S1x2048 .f32 := Host.absf main_arg13
  let main_cst_24 : FVec F S_ .f32 := constant S_ .f32 0x7F800000#32
  let main_v65 : FVec F S1x2048 .f32 := broadcastInDim S1x2048 ![] bcast_S_S1x2048 main_cst_24
  let main_v66 : IVec S1x2048 1 := cmpf .olt main_v64 main_v65
  let main_c_25 : IVec S_ 1 := constantI S_ 1 1#1
  let main_v67 : IVec S_ 1 := (fun x v => Host.reduce IntOp.andi x v reducesTo_S1x2048_S_d0_1 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048x2048 .f32) (main_arg6 : FVec F S2048x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512x256 : Shape := ⟨2, ![512, 256]⟩
abbrev S2048x256 : Shape := ⟨2, ![2048, 256]⟩
abbrev S1x256 : Shape := ⟨2, ![1, 256]⟩

abbrev nBuf : Space → Nat
  | .hbm => 27
  | .vmem => 34
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S4096x2048, .bf16⟩
  | .hbm, ⟨16, _⟩ => ⟨S4096x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S4096x2048, .f32⟩
  | .hbm, ⟨26, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  broadcasts_S1x256_S512x256 : S1x256.Broadcasts S512x256
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x2048.size a
  hwx0_5 : ∀ i : grid0.Coords, EltTy.bits .bf16 = 32 ∨ (Rect.block (s := S2048x2048) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .bf16 = 32 ∨ (Rect.block (s := S2048x2048) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .bf16 = 32 ∨ (Rect.block (s := S2048x2048) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v10_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v10_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LstmCell.lean ====
/-
  The mathematics of one LSTM cell step over the extended reals, with no program in sight.

  For a batch row `r` and a feature column `c`, each of the four gates has the pre-activation
      pre(r, c) = Σ_k X(r, k) · Wx(k, c)  +  Σ_k H(r, k) · Wh(k, c)  +  b(0, c),
  the forget, input and output gates pass it through the logistic function `1 / (1 + e^(-z))`, the
  candidate gate through `tanh`, and
      C'(r, c) = tanh(pre_g) · σ(pre_i) + σ(pre_f) · C(r, c),        Y(r, c) = σ(pre_o) · tanh(C'(r, c)).
  Two spellings of a pre-activation occur: `(x·Wx + h·Wh) + b` and `(x·Wx + b) + h·Wh`. They agree on
  every extended real because addition there is commutative and associative (no cancellation, no
  distributivity), so infinite partial sums are harmless and no finiteness is used anywhere.
-/
import Idealize.ShloMosaic.PureOps.Ideal.Laws
import Idealize.ShloMosaic.Lib.ValueIdx
import Idealize.ShloMosaic.Lib.IdealHost

noncomputable section

namespace Cert.Lstm

open Idealize.ShloMosaic Idealize.ShloMosaic.ValueIdx
open scoped BigOperators

/-! ## One entry of the cell -/

/-- The new cell state at one entry, from the six matrix-product entries `s··`, the three bias
    entries and the old cell state `c`: `tanh(g) · σ(i) + σ(f) · c`. -/
def cellC (sxf shf bf sxi shi bi sxg shg bg c : EReal) : EReal :=
  Ideal.tanh ((sxg + shg) + bg) * Ideal.logistic ((sxi + shi) + bi) + Ideal.logistic ((sxf + shf) + bf) * c

/-- The output at one entry: `σ(o) · tanh(C')`. -/
def cellY (sxo sho bo cn : EReal) : EReal :=
  Ideal.logistic ((sxo + sho) + bo) * Ideal.tanh cn

/-- The logistic function written out as a quotient, with the bias added BEFORE the second product,
    is the logistic function of the sum with the bias added last: `(a + b) + c = (a + c) + b`. -/
theorem logistic_spelled (a b c : EReal) :
    Ideal.div 1 (1 + Ideal.exp (-((a + b) + c))) = Ideal.logistic ((a + c) + b) := by
  rw [add_right_comm a b c]
  rfl

/-- The same regrouping under `tanh`. -/
theorem tanh_regrouped (a b c : EReal) : Ideal.tanh ((a + b) + c) = Ideal.tanh ((a + c) + b) := by
  rw [add_right_comm a b c]

/-! ## The whole arrays: batch 4096, features 2048 -/

/-- A `[4096, 2048]` activation array's index type. -/
abbrev SAct : Shape := ⟨2, ![4096, 2048]⟩
/-- A `[2048, 2048]` weight array's. -/
abbrev SWgt : Shape := ⟨2, ![2048, 2048]⟩
/-- A `[1, 2048]` bias row's. -/
abbrev SBias : Shape := ⟨2, ![1, 2048]⟩

/-- Row `i 0` of an activation array at column `k`. -/
abbrev actAt (i : SAct.Idx) (k : Fin 2048) : SAct.Idx := ix2 (n0 := 4096) (n1 := 2048) (i 0) k
/-- Column `i 1` of a weight array at row `k`. -/
abbrev wgtAt (i : SAct.Idx) (k : Fin 2048) : SWgt.Idx := ix2 (n0 := 2048) (n1 := 2048) k (i 1)
/-- Column `i 1` of a bias row. -/
abbrev biasAt (i : SAct.Idx) : SBias.Idx := ix2 (n0 := 1) (n1 := 2048) (0 : Fin 1) (i 1)

/-- `(x · w)(r, c) = Σ_k x(r, k) · w(k, c)`. -/
def prodAt (x : SAct.Idx → EReal) (w : SWgt.Idx → EReal) (i : SAct.Idx) : EReal :=
  ∑ k : Fin 2048, x (actAt i k) * w (wgtAt i k)

/-- The new cell state as one function of the argument arrays, index by index. -/
def cNew (X C H : SAct.Idx → EReal) (Wxf Wxg Wxi Whf Whg Whi : SWgt.Idx → EReal) (bf bg bi : SBias.Idx → EReal) :
    SAct.Idx → EReal := fun i =>
  cellC (prodAt X Wxf i) (prodAt H Whf i) (bf (biasAt i)) (prodAt X Wxi i) (prodAt H Whi i) (bi (biasAt i))
    (prodAt X Wxg i) (prodAt H Whg i) (bg (biasAt i)) (C i)

/-- The output as one function of the argument arrays, index by index. -/
def yOut (X C H : SAct.Idx → EReal) (Wxf Wxg Wxi Wxo Whf Whg Whi Who : SWgt.Idx → EReal) (bf bg bi bo : SBias.Idx → EReal) :
    SAct.Idx → EReal := fun i =>
  cellY (prodAt X Wxo i) (prodAt H Who i) (bo (biasAt i)) (cNew X C H Wxf Wxg Wxi Whf Whg Whi bf bg bi i)

end Cert.Lstm

end
-- ==== Proof.RefIsCell.lean ====
/-
  The reference program computes the LSTM cell function of `LstmCell.lean`.

  Read one operation at a time, each of the reference's eight matrix products is a sum over the
  contracted axis, each bias broadcast reads the bias row at the entry's column, and jax's expansion
  of the logistic function is the quotient `1 / (1 + e^(-z))`. The reference adds a gate's bias BEFORE
  its second product, `(x·Wx + b) + h·Wh`; regrouping the three summands (commutativity and associativity
  of `+` on the extended reals) gives the cell function's `(x·Wx + h·Wh) + b`.
-/
import proofs.«132140_j16458314678399_1_alg».proof.Proof.Gen.ReferenceIdeal.Read
import proofs.«132140_j16458314678399_1_alg».proof.Proof.LstmCell

noncomputable section

namespace Cert.ReferenceIdeal.IsCell

open Cert.ReferenceIdeal Cert.ReferenceIdeal.Gen Cert.ReferenceIdeal.Read
open Idealize.ShloMosaic Idealize.ShloMosaic.TcCoe Idealize.ShloMosaic.ValueIdx Cert.Lstm

/-- An activation array of the reference. -/
abbrev Act := (⟨S4096x2048, .f32⟩ : BufTy).Contents (Elt Ideal)
/-- A weight array of the reference. -/
abbrev Wgt := (⟨S2048x2048, .f32⟩ : BufTy).Contents (Elt Ideal)
/-- A bias row of the reference. -/
abbrev Bias := (⟨S1x2048, .f32⟩ : BufTy).Contents (Elt Ideal)

/-! ## The eight products: each entry is the sum over the contracted axis -/

theorem prod_v0 (x : Act) (w : Wgt) (i : S4096x2048.Idx) : val_main_v0 (F := Ideal) x w i = prodAt x w i := by
  rw [val_main_v0_apply]; unfold prodAt
  refine Finset.sum_congr rfl fun k _ => ?_
  have e1 : lidx_main_v0 i k = actAt i k := funext fun a => by match a with | ⟨0, _⟩ => rfl | ⟨1, _⟩ => rfl
  have e2 : ridx_main_v0 i k = wgtAt i k := funext fun a => by match a with | ⟨0, _⟩ => rfl | ⟨1, _⟩ => rfl
  rw [e1, e2]
theorem prod_v3 (x : Act) (w : Wgt) (i : S4096x2048.Idx) : val_main_v3 (F := Ideal) x w i = prodAt x w i := by
  rw [val_main_v3_apply]; unfold prodAt
  refine Finset.sum_congr rfl fun k _ => ?_
  have e1 : lidx_main_v3 i k = actAt i k := funext fun a => by match a with | ⟨0, _⟩ => rfl | ⟨1, _⟩ => rfl
  have e2 : ridx_main_v3 i k = wgtAt i k := funext fun a => by match a with | ⟨0, _⟩ => rfl | ⟨1, _⟩ => rfl
  rw [e1, e2]
theorem prod_v11 (x : Act) (w : Wgt) (i : S4096x2048.Idx) : val_main_v11 (F := Ideal) x w i = prodAt x w i := by
  rw [val_main_v11_apply]; unfold prodAt
  refine Finset.sum_congr rfl fun k _ => ?_
  have e1 : lidx_main_v11 i k = actAt i k := funext fun a => by match a with | ⟨0, _⟩ => rfl | ⟨1, _⟩ => rfl
  have e2 : ridx_main_v11 i k = wgtAt i k := funext fun a => by match a with | ⟨0, _⟩ => rfl | ⟨1, _⟩ => rfl
  rw [e1, e2]
theorem prod_v14 (x : Act) (w : Wgt) (i : S4096x2048.Idx) : val_main_v14 (F := Ideal) x w i = prodAt x w i := by
  rw [val_main_v14_apply]; unfold prodAt
  refine Finset.sum_congr rfl fun k _ => ?_
  have e1 : lidx_main_v14 i k = actAt i k := funext fun a => by match a with | ⟨0, _⟩ => rfl | ⟨1, _⟩ => rfl
  have e2 : ridx_main_v14 i k = wgtAt i k := funext fun a => by match a with | ⟨0, _⟩ => rfl | ⟨1, _⟩ => rfl
  rw [e1, e2]
theorem prod_v22 (x : Act) (w : Wgt) (i : S4096x2048.Idx) : val_main_v22 (F := Ideal) x w i = prodAt x w i := by
  rw [val_main_v22_apply]; unfold prodAt
  refine Finset.sum_congr rfl fun k _ => ?_
  have e1 : lidx_main_v22 i k = actAt i k := funext fun a => by match a with | ⟨0, _⟩ => rfl | ⟨1, _⟩ => rfl
  have e2 : ridx_main_v22 i k = wgtAt i k := funext fun a => by match a with | ⟨0, _⟩ => rfl | ⟨1, _⟩ => rfl
  rw [e1, e2]
theorem prod_v25 (x : Act) (w : Wgt) (i : S4096x2048.Idx) : val_main_v25 (F := Ideal) x w i = prodAt x w i := by
  rw [val_main_v25_apply]; unfold prodAt
  refine Finset.sum_congr rfl fun k _ => ?_
  have e1 : lidx_main_v25 i k = actAt i k := funext fun a => by match a with | ⟨0, _⟩ => rfl | ⟨1, _⟩ => rfl
  have e2 : ridx_main_v25 i k = wgtAt i k := funext fun a => by match a with | ⟨0, _⟩ => rfl | ⟨1, _⟩ => rfl
  rw [e1, e2]
theorem prod_v33 (x : Act) (w : Wgt) (i : S4096x2048.Idx) : val_main_v33 (F := Ideal) x w i = prodAt x w i := by
  rw [val_main_v33_apply]; unfold prodAt
  refine Finset.sum_congr rfl fun k _ => ?_
  have e1 : lidx_main_v33 i k = actAt i k := funext fun a => by match a with | ⟨0, _⟩ => rfl | ⟨1, _⟩ => rfl
  have e2 : ridx_main_v33 i k = wgtAt i k := funext fun a => by match a with | ⟨0, _⟩ => rfl | ⟨1, _⟩ => rfl
  rw [e1, e2]
theorem prod_v36 (x : Act) (w : Wgt) (i : S4096x2048.Idx) : val_main_v36 (F := Ideal) x w i = prodAt x w i := by
  rw [val_main_v36_apply]; unfold prodAt
  refine Finset.sum_congr rfl fun k _ => ?_
  have e1 : lidx_main_v36 i k = actAt i k := funext fun a => by match a with | ⟨0, _⟩ => rfl | ⟨1, _⟩ => rfl
  have e2 : ridx_main_v36 i k = wgtAt i k := funext fun a => by match a with | ⟨0, _⟩ => rfl | ⟨1, _⟩ => rfl
  rw [e1, e2]

/-! ## The four bias broadcasts: the bias row at the entry's column -/

theorem bias_v1 (b : Bias) (i : S4096x2048.Idx) : val_main_v1 (F := Ideal) b i = b (biasAt i) := by
  rw [val_main_v1_apply]
  exact congrArg b (funext fun a => by match a with | ⟨0, _⟩ => rfl | ⟨1, _⟩ => rfl)
theorem bias_v12 (b : Bias) (i : S4096x2048.Idx) : val_main_v12 (F := Ideal) b i = b (biasAt i) := by
  rw [val_main_v12_apply]
  exact congrArg b (funext fun a => by match a with | ⟨0, _⟩ => rfl | ⟨1, _⟩ => rfl)
theorem bias_v23 (b : Bias) (i : S4096x2048.Idx) : val_main_v23 (F := Ideal) b i = b (biasAt i) := by
  rw [val_main_v23_apply]
  exact congrArg b (funext fun a => by match a with | ⟨0, _⟩ => rfl | ⟨1, _⟩ => rfl)
theorem bias_v34 (b : Bias) (i : S4096x2048.Idx) : val_main_v34 (F := Ideal) b i = b (biasAt i) := by
  rw [val_main_v34_apply]
  exact congrArg b (funext fun a => by match a with | ⟨0, _⟩ => rfl | ⟨1, _⟩ => rfl)

/-! ## The gates -/

/-- The forget gate: jax's quotient `1 / (1 + e^(-z))` of `z = (X·W_xf + b_f) + H·W_hf`. -/
theorem gate_f (x0 x2 : Act) (x3 x7 : Wgt) (x11 : Bias) (i : S4096x2048.Idx) :
    val_main_v10 (F := Ideal) x0 x2 x3 x7 x11 i = Ideal.logistic ((prodAt x0 x3 i + prodAt x2 x7 i) + x11 (biasAt i)) := by
  rw [val_main_v10_apply, val_main_v9_apply, val_main_cst_0_apply, val_main_v8_apply, val_main_v7_apply, val_main_cst_apply,
    val_main_v6_apply, val_main_v5_apply, val_main_v4_apply, val_main_v2_apply, prod_v0, bias_v1, prod_v3]
  simp only [Ideal.hostDivf_def, Ideal.addf_def, Ideal.hostUnary_exp_def, Ideal.hostNegf_def, Ideal.negf_def, Ideal.ofBits_def,
    Ideal.ofBits_one_f32]
  exact logistic_spelled _ _ _

/-- The input gate. -/
theorem gate_i (x0 x2 : Act) (x5 x9 : Wgt) (x13 : Bias) (i : S4096x2048.Idx) :
    val_main_v21 (F := Ideal) x0 x2 x5 x9 x13 i = Ideal.logistic ((prodAt x0 x5 i + prodAt x2 x9 i) + x13 (biasAt i)) := by
  rw [val_main_v21_apply, val_main_v20_apply, val_main_cst_2_apply, val_main_v19_apply, val_main_v18_apply, val_main_cst_1_apply,
    val_main_v17_apply, val_main_v16_apply, val_main_v15_apply, val_main_v13_apply, prod_v11, bias_v12, prod_v14]
  simp only [Ideal.hostDivf_def, Ideal.addf_def, Ideal.hostUnary_exp_def, Ideal.hostNegf_def, Ideal.negf_def, Ideal.ofBits_def,
    Ideal.ofBits_one_f32]
  exact logistic_spelled _ _ _

/-- The output gate. -/
theorem gate_o (x0 x2 : Act) (x6 x10 : Wgt) (x14 : Bias) (i : S4096x2048.Idx) :
    val_main_v32 (F := Ideal) x0 x2 x6 x10 x14 i = Ideal.logistic ((prodAt x0 x6 i + prodAt x2 x10 i) + x14 (biasAt i)) := by
  rw [val_main_v32_apply, val_main_v31_apply, val_main_cst_4_apply, val_main_v30_apply, val_main_v29_apply, val_main_cst_3_apply,
    val_main_v28_apply, val_main_v27_apply, val_main_v26_apply, val_main_v24_apply, prod_v22, bias_v23, prod_v25]
  simp only [Ideal.hostDivf_def, Ideal.addf_def, Ideal.hostUnary_exp_def, Ideal.hostNegf_def, Ideal.negf_def, Ideal.ofBits_def,
    Ideal.ofBits_one_f32]
  exact logistic_spelled _ _ _

/-- The candidate gate. -/
theorem gate_g (x0 x2 : Act) (x4 x8 : Wgt) (x12 : Bias) (i : S4096x2048.Idx) :
    val_main_v38 (F := Ideal) x0 x2 x4 x8 x12 i = Ideal.tanh ((prodAt x0 x4 i + prodAt x2 x8 i) + x12 (biasAt i)) := by
  rw [val_main_v38_apply, val_main_v37_apply, val_main_v35_apply, prod_v33, bias_v34, prod_v36]
  simp only [Ideal.addf_def, Ideal.hostUnary_tanh_def]
  exact tanh_regrouped _ _ _

/-! ## The two results -/

/-- The reference's first result is the new cell state. -/
theorem ref_cNew (x0 x1 x2 : Act) (x3 x4 x5 x7 x8 x9 : Wgt) (x11 x12 x13 : Bias) :
    val_main_v41 (F := Ideal) x0 x1 x2 x3 x4 x5 x7 x8 x9 x11 x12 x13 = cNew x0 x1 x2 x3 x4 x5 x7 x8 x9 x11 x12 x13 := by
  funext i
  rw [val_main_v41_apply, val_main_v39_apply, val_main_v40_apply, gate_g, gate_i, gate_f]
  rfl

/-- The reference's second result is the output. -/
theorem ref_yOut (x0 x1 x2 : Act) (x3 x4 x5 x6 x7 x8 x9 x10 : Wgt) (x11 x12 x13 x14 : Bias) :
    val_main_v43 (F := Ideal) x0 x1 x2 x3 x4 x5 x6 x7 x8 x9 x10 x11 x12 x13 x14
      = yOut x0 x1 x2 x3 x4 x5 x6 x7 x8 x9 x10 x11 x12 x13 x14 := by
  funext i
  rw [val_main_v43_apply, val_main_v42_apply, gate_o, ref_cNew]
  rfl

end Cert.ReferenceIdeal.IsCell

end
-- ==== Proof.CellBlock.lean ====
/-
  What the kernel's body computes on one grid point's blocks, entry by entry.

  A point holds a `[512, 2048]` block of the inputs `x` and `h`, eight `[2048, 256]` weight blocks, four
  `[1, 256]` bias blocks and a `[512, 256]` block of the old cell state. Each of the body's eight matrix
  products starts from a zero accumulator, so its entry `(p, q)` is `Σ_k a(p, k) · b(k, q)`; a bias block
  broadcast along the rows reads `b(0, q)`; the shape casts keep their shape and are the identity. The
  two stored values at `(p, q)` are therefore the cell function's `cellC` and `cellY` of those sums.
-/
import proofs.«132140_j16458314678399_1_alg».proof.Proof.Gen.KernelIdeal.Skeleton
import proofs.«132140_j16458314678399_1_alg».proof.Proof.LstmCell
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.TcCoe Idealize.ShloMosaic.ValueIdx Cert.Lstm
open scoped BigOperators

/-! ## One block product at an entry -/

/-- Row `j 0` of an `x` / `h` block at column `k`. -/
abbrev rowAt (j : S512x256.Idx) (k : Fin 2048) : S512x2048.Idx := ix2 (n0 := 512) (n1 := 2048) (j 0) k
/-- Column `j 1` of a weight block at row `k`. -/
abbrev colAt (j : S512x256.Idx) (k : Fin 2048) : S2048x256.Idx := ix2 (n0 := 2048) (n1 := 256) k (j 1)
/-- Column `j 1` of a bias block. -/
abbrev biasCol (j : S512x256.Idx) : S1x256.Idx := ix2 (n0 := 1) (n1 := 256) (0 : Fin 1) (j 1)

/-- `(a · b)(p, q) = Σ_k a(p, k) · b(k, q)` on one point's blocks. -/
def blkProd (a : S512x2048.Idx → EReal) (b : S2048x256.Idx → EReal) (j : S512x256.Idx) : EReal :=
  ∑ k : Fin 2048, a (rowAt j k) * b (colAt j k)

/-- A block product is the whole arrays' product at entry `i` when the two blocks hold row `i 0` of the
    left array and column `i 1` of the right one. -/
theorem blkProd_eq (X : SAct.Idx → EReal) (W : SWgt.Idx → EReal) (a : S512x2048.Idx → EReal) (b : S2048x256.Idx → EReal)
    (j : S512x256.Idx) (i : SAct.Idx) (ha : ∀ k, a (rowAt j k) = X (actAt i k)) (hb : ∀ k, b (colAt j k) = W (wgtAt i k)) :
    blkProd a b j = prodAt X W i := by
  unfold blkProd prodAt
  exact Finset.sum_congr rfl fun k _ => by rw [ha k, hb k]

theorem lhs_0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs_1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs_0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs_1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A matrix product into the zero accumulator, read at an entry: the sum over the contracted axis. -/
theorem matmul_blk (a : FVec Ideal S512x2048 .bf16) (b : FVec Ideal S2048x256 .bf16) (j : S512x256.Idx) :
    matmul dot_S512x2048_S2048x256_S512x256_1_0_0_1_n_n none a b (constant S512x256 .f32 0x00000000#32) j = blkProd a b j := by
  unfold blkProd
  show FloatOps.matmul dot_S512x2048_S2048x256_S512x256_1_0_0_1_n_n none a b (constant S512x256 .f32 0x00000000#32) j = _
  rw [Ideal.matmul_constant_zero_apply, ← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx j ((ValueIdx.contrEquiv1 dot_S512x2048_S2048x256_S512x256_1_0_0_1_n_n 2048 rfl rfl).symm k) = rowAt j k := funext fun a => Fin.ext (by
    match a with
    | ⟨0, _⟩ => exact lhs_0 _ _
    | ⟨1, _⟩ => exact (lhs_1 _ _).trans hk)
  have er : dot_S512x2048_S2048x256_S512x256_1_0_0_1_n_n.rhsIdx j ((ValueIdx.contrEquiv1 dot_S512x2048_S2048x256_S512x256_1_0_0_1_n_n 2048 rfl rfl).symm k) = colAt j k := funext fun a => Fin.ext (by
    match a with
    | ⟨0, _⟩ => exact (rhs_0 _ _).trans hk
    | ⟨1, _⟩ => exact rhs_1 _ _)
  rw [el, er]

/-- A bias block broadcast along the rows reads the bias at the entry's column. -/
theorem bias_blk (b : Vec Ideal S1x256 .f32) (j : S512x256.Idx) :
    broadcastTo S512x256 b broadcasts_S1x256_S512x256 j = b (biasCol j) :=
  broadcastTo_apply b broadcasts_S1x256_S512x256 j (biasCol j) (fun a => match a with
    | ⟨0, _⟩ => by show 0 = if (1 : Nat) = 1 then 0 else _; rw [if_pos rfl]
    | ⟨1, _⟩ => by show (j 1).val = if (256 : Nat) = 1 then 0 else (j 1).val; rw [if_neg (by decide)])

/-! ## The body's values at an entry -/

/-- A gate's pre-activation from the loaded blocks: `(x·Wx + h·Wh) + b`. -/
theorem pay5_apply (v0 v2 : Vec Ideal S512x2048 .bf16) (v5 v8 : Vec Ideal S2048x256 .bf16) (v12 : Vec Ideal S1x256 .f32) (j : S512x256.Idx) :
    k0_pay5 v0 v2 v5 v8 v12 j = (blkProd v0 v5 j + blkProd v2 v8 j) + v12 (biasCol j) := by
  unfold k0_pay5 k0_pay3 k0_pay4
  simp only [shapeCast_self]
  show (matmul (F := Ideal) dot_S512x2048_S2048x256_S512x256_1_0_0_1_n_n none v0 v5 (constant S512x256 .f32 0x00000000#32) j + matmul (F := Ideal) dot_S512x2048_S2048x256_S512x256_1_0_0_1_n_n none v2 v8 (constant S512x256 .f32 0x00000000#32) j)
      + broadcastTo S512x256 v12 broadcasts_S1x256_S512x256 j = _
  rw [matmul_blk, matmul_blk, bias_blk]

theorem pay6_apply (v0 v2 : Vec Ideal S512x2048 .bf16) (v15 v18 : Vec Ideal S2048x256 .bf16) (v22 : Vec Ideal S1x256 .f32) (j : S512x256.Idx) :
    k0_pay6 v0 v2 v15 v18 v22 j = (blkProd v0 v15 j + blkProd v2 v18 j) + v22 (biasCol j) := by
  unfold k0_pay6 k0_pay3 k0_pay4
  simp only [shapeCast_self]
  show (matmul (F := Ideal) dot_S512x2048_S2048x256_S512x256_1_0_0_1_n_n none v0 v15 (constant S512x256 .f32 0x00000000#32) j + matmul (F := Ideal) dot_S512x2048_S2048x256_S512x256_1_0_0_1_n_n none v2 v18 (constant S512x256 .f32 0x00000000#32) j)
      + broadcastTo S512x256 v22 broadcasts_S1x256_S512x256 j = _
  rw [matmul_blk, matmul_blk, bias_blk]

theorem pay7_apply (v0 : Vec Ideal S512x2048 .bf16) (v25 : Vec Ideal S2048x256 .bf16) (j : S512x256.Idx) :
    k0_pay7 v0 v25 j = blkProd v0 v25 j := by
  unfold k0_pay7 k0_pay3
  simp only [shapeCast_self]
  exact matmul_blk v0 v25 j

theorem pay3_eq (v0 : Vec Ideal S512x2048 .bf16) : k0_pay3 v0 = v0 := by
  unfold k0_pay3; exact shapeCast_self _ _
theorem pay4_eq (v2 : Vec Ideal S512x2048 .bf16) : k0_pay4 v2 = v2 := by
  unfold k0_pay4; exact shapeCast_self _ _
theorem pay8_eq (v28 : Vec Ideal S2048x256 .bf16) : k0_pay8 v28 = v28 := by
  unfold k0_pay8; exact shapeCast_self _ _

/-- The stored new cell state at an entry, from the two pre-activations already formed (`v14`: forget,
    `v24`: input) and the candidate gate's blocks. -/
theorem pay1_apply (v1 v3 : FVec Ideal S512x2048 .bf16) (v4 : Vec Ideal S512x256 .f32) (v14 v24 : FVec Ideal S512x256 .f32)
    (v35 v38 : Vec Ideal S2048x256 .bf16) (v42 : Vec Ideal S1x256 .f32) (j : S512x256.Idx) :
    k0_pay1 v1 v3 v4 v14 v24 v35 v38 v42 j
      = Ideal.tanh ((blkProd v1 v35 j + blkProd v3 v38 j) + v42 (biasCol j)) * Ideal.logistic (v24 j) + Ideal.logistic (v14 j) * v4 j := by
  unfold k0_pay1
  simp only [shapeCast_self]
  show Ideal.tanh ((matmul (F := Ideal) dot_S512x2048_S2048x256_S512x256_1_0_0_1_n_n none v1 v35 (constant S512x256 .f32 0x00000000#32) j + matmul (F := Ideal) dot_S512x2048_S2048x256_S512x256_1_0_0_1_n_n none v3 v38 (constant S512x256 .f32 0x00000000#32) j)
      + broadcastTo S512x256 v42 broadcasts_S1x256_S512x256 j) * Ideal.logistic (v24 j) + Ideal.logistic (v14 j) * v4 j = _
  rw [matmul_blk, matmul_blk, bias_blk]

/-- The stored output at an entry, from the new cell state and the output gate's blocks (`v27`: the
    product `x · W_xo` already formed). -/
theorem pay2_apply (v1 v3 : FVec Ideal S512x2048 .bf16) (v4 : Vec Ideal S512x256 .f32) (v14 v24 v27 : FVec Ideal S512x256 .f32)
    (v29 : FVec Ideal S2048x256 .bf16) (v32 : Vec Ideal S1x256 .f32) (v35 v38 : Vec Ideal S2048x256 .bf16) (v42 : Vec Ideal S1x256 .f32)
    (j : S512x256.Idx) :
    k0_pay2 v1 v3 v4 v14 v24 v27 v29 (constant S512x256 .f32 0x00000000#32) v32 v35 v38 v42 j
      = Ideal.logistic ((v27 j + blkProd v3 v29 j) + v32 (biasCol j)) * Ideal.tanh (k0_pay1 v1 v3 v4 v14 v24 v35 v38 v42 j) := by
  unfold k0_pay2
  show Ideal.logistic ((v27 j + matmul (F := Ideal) dot_S512x2048_S2048x256_S512x256_1_0_0_1_n_n none v3 v29 (constant S512x256 .f32 0x00000000#32) j)
      + broadcastTo S512x256 v32 broadcasts_S1x256_S512x256 j) * Ideal.tanh (k0_pay1 v1 v3 v4 v14 v24 v35 v38 v42 j) = _
  rw [matmul_blk, bias_blk]

end Cert.KernelIdeal.Block

end
-- ==== Proof.CellArray.lean ====
/-
  From one grid point's blocks to the whole result arrays.

  The grid is 8 × 8: a point `t` works on batch-row block `I` (512 rows) and feature-column block `J`
  (256 columns). It reads rows `I` of `x` and `h` (all 2048 columns), columns `J` of every weight (all 2048
  rows) and of every bias row, and block `(I, J)` of the old cell state, and writes block `(I, J)` of both
  results. So entry `(p, q)` of a point's output block lands on array entry `(512·I + p, 256·J + q)`, the
  block products are the whole products at that entry, and what the point writes back is the cell
  function's block there. The 64 output blocks tile the arrays, hence both result arrays ARE the cell
  function of the argument arrays. The bf16 copies of `x`, `h` and the weights that the program makes
  before the call are, over the extended reals, the arguments themselves (a change of format is the identity).
-/
import proofs.«132140_j16458314678399_1_alg».proof.Proof.Gen.KernelIdeal.Value
import proofs.«132140_j16458314678399_1_alg».proof.Proof.CellBlock
import Idealize.ShloMosaic.Lib.StableHlo.Run

set_option maxRecDepth 16384

noncomputable section

namespace Cert.KernelIdeal.CellArray

open Cert.KernelIdeal Cert.KernelIdeal.Gen Cert.KernelIdeal.Block
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 64 points -/

/-- The `x` and `h` windows follow the output's row block and sit at column block 0. -/
theorem idx_act : ∀ t : Fin cfg0.N, win0_0.index t (0 : Fin 2) = win0_15.index t (0 : Fin 2) ∧ win0_0.index t (1 : Fin 2) = 0
    ∧ win0_1.index t (0 : Fin 2) = win0_15.index t (0 : Fin 2) ∧ win0_1.index t (1 : Fin 2) = 0 :=
  (by decide +kernel : ∀ t : Fin grid0.N, _)

/-- The old cell state's window and the second output's move with the first output's. -/
theorem idx_cell : ∀ t : Fin cfg0.N, win0_2.index t (0 : Fin 2) = win0_15.index t (0 : Fin 2) ∧ win0_2.index t (1 : Fin 2) = win0_15.index t (1 : Fin 2)
    ∧ win0_16.index t (0 : Fin 2) = win0_15.index t (0 : Fin 2) ∧ win0_16.index t (1 : Fin 2) = win0_15.index t (1 : Fin 2) :=
  (by decide +kernel : ∀ t : Fin grid0.N, _)

/-- The eight weight windows sit at row block 0 and follow the output's column block. -/
theorem idx_wgt : ∀ t : Fin cfg0.N, win0_3.index t (0 : Fin 2) = 0 ∧ win0_3.index t (1 : Fin 2) = win0_15.index t (1 : Fin 2)
    ∧ win0_4.index t (0 : Fin 2) = 0 ∧ win0_4.index t (1 : Fin 2) = win0_15.index t (1 : Fin 2)
    ∧ win0_5.index t (0 : Fin 2) = 0 ∧ win0_5.index t (1 : Fin 2) = win0_15.index t (1 : Fin 2)
    ∧ win0_6.index t (0 : Fin 2) = 0 ∧ win0_6.index t (1 : Fin 2) = win0_15.index t (1 : Fin 2)
    ∧ win0_7.index t (0 : Fin 2) = 0 ∧ win0_7.index t (1 : Fin 2) = win0_15.index t (1 : Fin 2)
    ∧ win0_8.index t (0 : Fin 2) = 0 ∧ win0_8.index t (1 : Fin 2) = win0_15.index t (1 : Fin 2)
    ∧ win0_9.index t (0 : Fin 2) = 0 ∧ win0_9.index t (1 : Fin 2) = win0_15.index t (1 : Fin 2)
    ∧ win0_10.index t (0 : Fin 2) = 0 ∧ win0_10.index t (1 : Fin 2) = win0_15.index t (1 : Fin 2) :=
  (by decide +kernel : ∀ t : Fin grid0.N, _)

/-- So do the four bias windows. -/
theorem idx_bias : ∀ t : Fin cfg0.N, win0_11.index t (0 : Fin 2) = 0 ∧ win0_11.index t (1 : Fin 2) = win0_15.index t (1 : Fin 2)
    ∧ win0_12.index t (0 : Fin 2) = 0 ∧ win0_12.index t (1 : Fin 2) = win0_15.index t (1 : Fin 2)
    ∧ win0_13.index t (0 : Fin 2) = 0 ∧ win0_13.index t (1 : Fin 2) = win0_15.index t (1 : Fin 2)
    ∧ win0_14.index t (0 : Fin 2) = 0 ∧ win0_14.index t (1 : Fin 2) = win0_15.index t (1 : Fin 2) :=
  (by decide +kernel : ∀ t : Fin grid0.N, _)

/-- Every one of the 8 × 8 output blocks is some point's. -/
theorem idx_onto : ∀ (q0 : Fin 8) (q1 : Fin 8), ∃ t : Fin cfg0.N, win0_15.index t = ![q0.val, q1.val] :=
  (by decide +kernel : ∀ (q0 : Fin 8) (q1 : Fin 8), ∃ t : Fin grid0.N, win0_15.index t = ![q0.val, q1.val])

/-! ## Where an entry of a point's output block lands -/

/-- Array entry `i` is entry `j` of point `t`'s output block. -/
def Lands (t : Fin cfg0.N) (j : S512x256.Idx) (i : S4096x2048.Idx) : Prop :=
  (i 0).val = win0_15.index t (0 : Fin 2) * 512 + (j 0).val ∧ (i 1).val = win0_15.index t (1 : Fin 2) * 256 + (j 1).val

theorem lands15 (t : Fin cfg0.N) (j : S512x256.Idx) : Lands t j (((cfg0.win 15).blk t).view.emb j) := by
  constructor
  · show win0_15.index t (0 : Fin 2) * 512 + 1 * (j 0).val = _; omega
  · show win0_15.index t (1 : Fin 2) * 256 + 1 * (j 1).val = _; omega

theorem lands16 (t : Fin cfg0.N) (j : S512x256.Idx) : Lands t j (((cfg0.win 16).blk t).view.emb j) := by
  obtain ⟨_, _, e2, e3⟩ := idx_cell t
  constructor
  · show win0_16.index t (0 : Fin 2) * 512 + 1 * (j 0).val = _; omega
  · show win0_16.index t (1 : Fin 2) * 256 + 1 * (j 1).val = _; omega

/-! ## Each input window's block, read where the output entry lands -/

section Reads
variable (c : Dev nD) (t : Fin cfg0.N) (j : S512x256.Idx) (i : S4096x2048.Idx) (h : Lands t j i)
include h

theorem read0 (k : Fin 2048) : iblk m c 0 t (rowAt j k) = V m c main_v0 (actAt i k) := by
  obtain ⟨e0, e1, _, _⟩ := idx_act t
  have e : ((cfg0.win 0).blk t).view.emb (rowAt j k) = actAt i k := funext fun a => Fin.ext (by
    match a with
    | ⟨0, _⟩ => show win0_0.index t (0 : Fin 2) * 512 + 1 * (j 0).val = (i 0).val; rw [h.1]; omega
    | ⟨1, _⟩ => show win0_0.index t (1 : Fin 2) * 2048 + 1 * k.val = k.val; omega)
  show V m c main_v0 (((cfg0.win 0).blk t).view.emb (rowAt j k)) = _
  rw [e]

theorem read1 (k : Fin 2048) : iblk m c 1 t (rowAt j k) = V m c main_v1 (actAt i k) := by
  obtain ⟨_, _, e0, e1⟩ := idx_act t
  have e : ((cfg0.win 1).blk t).view.emb (rowAt j k) = actAt i k := funext fun a => Fin.ext (by
    match a with
    | ⟨0, _⟩ => show win0_1.index t (0 : Fin 2) * 512 + 1 * (j 0).val = (i 0).val; rw [h.1]; omega
    | ⟨1, _⟩ => show win0_1.index t (1 : Fin 2) * 2048 + 1 * k.val = k.val; omega)
  show V m c main_v1 (((cfg0.win 1).blk t).view.emb (rowAt j k)) = _
  rw [e]

theorem read2 : iblk m c 2 t j = V m c main_arg1 i := by
  obtain ⟨e0, e1, _, _⟩ := idx_cell t
  have e : ((cfg0.win 2).blk t).view.emb j = i := funext fun a => Fin.ext (by
    match a with
    | ⟨0, _⟩ => show win0_2.index t (0 : Fin 2) * 512 + 1 * (j 0).val = (i 0).val; rw [h.1]; omega
    | ⟨1, _⟩ => show win0_2.index t (1 : Fin 2) * 256 + 1 * (j 1).val = (i 1).val; rw [h.2]; omega)
  show V m c main_arg1 (((cfg0.win 2).blk t).view.emb j) = _
  rw [e]

theorem read3 (k : Fin 2048) : iblk m c 3 t (colAt j k) = V m c main_v2 (wgtAt i k) := by
  obtain ⟨e0, e1, _⟩ := idx_wgt t
  have e : ((cfg0.win 3).blk t).view.emb (colAt j k) = wgtAt i k := funext fun a => Fin.ext (by
    match a with
    | ⟨0, _⟩ => show win0_3.index t (0 : Fin 2) * 2048 + 1 * k.val = k.val; omega
    | ⟨1, _⟩ => show win0_3.index t (1 : Fin 2) * 256 + 1 * (j 1).val = (i 1).val; rw [h.2]; omega)
  show V m c main_v2 (((cfg0.win 3).blk t).view.emb (colAt j k)) = _
  rw [e]

theorem read4 (k : Fin 2048) : iblk m c 4 t (colAt j k) = V m c main_v3 (wgtAt i k) := by
  obtain ⟨_, _, e0, e1, _⟩ := idx_wgt t
  have e : ((cfg0.win 4).blk t).view.emb (colAt j k) = wgtAt i k := funext fun a => Fin.ext (by
    match a with
    | ⟨0, _⟩ => show win0_4.index t (0 : Fin 2) * 2048 + 1 * k.val = k.val; omega
    | ⟨1, _⟩ => show win0_4.index t (1 : Fin 2) * 256 + 1 * (j 1).val = (i 1).val; rw [h.2]; omega)
  show V m c main_v3 (((cfg0.win 4).blk t).view.emb (colAt j k)) = _
  rw [e]

theorem read5 (k : Fin 2048) : iblk m c 5 t (colAt j k) = V m c main_v4 (wgtAt i k) := by
  obtain ⟨_, _, _, _, e0, e1, _⟩ := idx_wgt t
  have e : ((cfg0.win 5).blk t).view.emb (colAt j k) = wgtAt i k := funext fun a => Fin.ext (by
    match a with
    | ⟨0, _⟩ => show win0_5.index t (0 : Fin 2) * 2048 + 1 * k.val = k.val; omega
    | ⟨1, _⟩ => show win0_5.index t (1 : Fin 2) * 256 + 1 * (j 1).val = (i 1).val; rw [h.2]; omega)
  show V m c main_v4 (((cfg0.win 5).blk t).view.emb (colAt j k)) = _
  rw [e]

theorem read6 (k : Fin 2048) : iblk m c 6 t (colAt j k) = V m c main_v5 (wgtAt i k) := by
  obtain ⟨_, _, _, _, _, _, e0, e1, _⟩ := idx_wgt t
  have e : ((cfg0.win 6).blk t).view.emb (colAt j k) = wgtAt i k := funext fun a => Fin.ext (by
    match a with
    | ⟨0, _⟩ => show win0_6.index t (0 : Fin 2) * 2048 + 1 * k.val = k.val; omega
    | ⟨1, _⟩ => show win0_6.index t (1 : Fin 2) * 256 + 1 * (j 1).val = (i 1).val; rw [h.2]; omega)
  show V m c main_v5 (((cfg0.win 6).blk t).view.emb (colAt j k)) = _
  rw [e]

theorem read7 (k : Fin 2048) : iblk m c 7 t (colAt j k) = V m c main_v6 (wgtAt i k) := by
  obtain ⟨_, _, _, _, _, _, _, _, e0, e1, _⟩ := idx_wgt t
  have e : ((cfg0.win 7).blk t).view.emb (colAt j k) = wgtAt i k := funext fun a => Fin.ext (by
    match a with
    | ⟨0, _⟩ => show win0_7.index t (0 : Fin 2) * 2048 + 1 * k.val = k.val; omega
    | ⟨1, _⟩ => show win0_7.index t (1 : Fin 2) * 256 + 1 * (j 1).val = (i 1).val; rw [h.2]; omega)
  show V m c main_v6 (((cfg0.win 7).blk t).view.emb (colAt j k)) = _
  rw [e]

theorem read8 (k : Fin 2048) : iblk m c 8 t (colAt j k) = V m c main_v7 (wgtAt i k) := by
  obtain ⟨_, _, _, _, _, _, _, _, _, _, e0, e1, _⟩ := idx_wgt t
  have e : ((cfg0.win 8).blk t).view.emb (colAt j k) = wgtAt i k := funext fun a => Fin.ext (by
    match a with
    | ⟨0, _⟩ => show win0_8.index t (0 : Fin 2) * 2048 + 1 * k.val = k.val; omega
    | ⟨1, _⟩ => show win0_8.index t (1 : Fin 2) * 256 + 1 * (j 1).val = (i 1).val; rw [h.2]; omega)
  show V m c main_v7 (((cfg0.win 8).blk t).view.emb (colAt j k)) = _
  rw [e]

theorem read9 (k : Fin 2048) : iblk m c 9 t (colAt j k) = V m c main_v8 (wgtAt i k) := by
  obtain ⟨_, _, _, _, _, _, _, _, _, _, _, _, e0, e1, _⟩ := idx_wgt t
  have e : ((cfg0.win 9).blk t).view.emb (colAt j k) = wgtAt i k := funext fun a => Fin.ext (by
    match a with
    | ⟨0, _⟩ => show win0_9.index t (0 : Fin 2) * 2048 + 1 * k.val = k.val; omega
    | ⟨1, _⟩ => show win0_9.index t (1 : Fin 2) * 256 + 1 * (j 1).val = (i 1).val; rw [h.2]; omega)
  show V m c main_v8 (((cfg0.win 9).blk t).view.emb (colAt j k)) = _
  rw [e]

theorem read10 (k : Fin 2048) : iblk m c 10 t (colAt j k) = V m c main_v9 (wgtAt i k) := by
  obtain ⟨_, _, _, _, _, _, _, _, _, _, _, _, _, _, e0, e1⟩ := idx_wgt t
  have e : ((cfg0.win 10).blk t).view.emb (colAt j k) = wgtAt i k := funext fun a => Fin.ext (by
    match a with
    | ⟨0, _⟩ => show win0_10.index t (0 : Fin 2) * 2048 + 1 * k.val = k.val; omega
    | ⟨1, _⟩ => show win0_10.index t (1 : Fin 2) * 256 + 1 * (j 1).val = (i 1).val; rw [h.2]; omega)
  show V m c main_v9 (((cfg0.win 10).blk t).view.emb (colAt j k)) = _
  rw [e]

theorem read11 : iblk m c 11 t (biasCol j) = V m c main_arg11 (biasAt i) := by
  obtain ⟨e0, e1, _⟩ := idx_bias t
  have e : ((cfg0.win 11).blk t).view.emb (biasCol j) = biasAt i := funext fun a => Fin.ext (by
    match a with
    | ⟨0, _⟩ => show win0_11.index t (0 : Fin 2) * 1 + 1 * 0 = 0; omega
    | ⟨1, _⟩ => show win0_11.index t (1 : Fin 2) * 256 + 1 * (j 1).val = (i 1).val; rw [h.2]; omega)
  show V m c main_arg11 (((cfg0.win 11).blk t).view.emb (biasCol j)) = _
  rw [e]

theorem read12 : iblk m c 12 t (biasCol j) = V m c main_arg13 (biasAt i) := by
  obtain ⟨_, _, e0, e1, _⟩ := idx_bias t
  have e : ((cfg0.win 12).blk t).view.emb (biasCol j) = biasAt i := funext fun a => Fin.ext (by
    match a with
    | ⟨0, _⟩ => show win0_12.index t (0 : Fin 2) * 1 + 1 * 0 = 0; omega
    | ⟨1, _⟩ => show win0_12.index t (1 : Fin 2) * 256 + 1 * (j 1).val = (i 1).val; rw [h.2]; omega)
  show V m c main_arg13 (((cfg0.win 12).blk t).view.emb (biasCol j)) = _
  rw [e]

theorem read13 : iblk m c 13 t (biasCol j) = V m c main_arg14 (biasAt i) := by
  obtain ⟨_, _, _, _, e0, e1, _⟩ := idx_bias t
  have e : ((cfg0.win 13).blk t).view.emb (biasCol j) = biasAt i := funext fun a => Fin.ext (by
    match a with
    | ⟨0, _⟩ => show win0_13.index t (0 : Fin 2) * 1 + 1 * 0 = 0; omega
    | ⟨1, _⟩ => show win0_13.index t (1 : Fin 2) * 256 + 1 * (j 1).val = (i 1).val; rw [h.2]; omega)
  show V m c main_arg14 (((cfg0.win 13).blk t).view.emb (biasCol j)) = _
  rw [e]

theorem read14 : iblk m c 14 t (biasCol j) = V m c main_arg12 (biasAt i) := by
  obtain ⟨_, _, _, _, _, _, e0, e1⟩ := idx_bias t
  have e : ((cfg0.win 14).blk t).view.emb (biasCol j) = biasAt i := funext fun a => Fin.ext (by
    match a with
    | ⟨0, _⟩ => show win0_14.index t (0 : Fin 2) * 1 + 1 * 0 = 0; omega
    | ⟨1, _⟩ => show win0_14.index t (1 : Fin 2) * 256 + 1 * (j 1).val = (i 1).val; rw [h.2]; omega)
  show V m c main_arg12 (((cfg0.win 14).blk t).view.emb (biasCol j)) = _
  rw [e]

end Reads

/-! ## The body's two stored blocks, entry by entry -/

/-- The first output's buffer after the body at an entry: the new cell state of the blocks' sums. -/
theorem out15_apply (x0 x1 : Vec Ideal S512x2048 .bf16) (x2 : Vec Ideal S512x256 .f32)
    (x3 x4 x5 x6 x7 x8 x9 x10 : Vec Ideal S2048x256 .bf16) (x11 x12 x13 x14 : Vec Ideal S1x256 .f32) (j : S512x256.Idx) :
    out0_15 x0 x1 x2 x3 x4 x5 x6 x7 x8 x9 x10 x11 x12 x13 x14 j
      = cellC (blkProd x0 x3 j) (blkProd x1 x7 j) (x11 (biasCol j)) (blkProd x0 x4 j) (blkProd x1 x8 j) (x12 (biasCol j))
          (blkProd x0 x6 j) (blkProd x1 x10 j) (x14 (biasCol j)) (x2 j) := by
  unfold out0_15
  rw [View.canon_unit_zero hz]
  simp only [View.ld_unit_zero (S := S512x2048) hz, View.ld_unit_zero (S := S512x256) hz, View.ld_unit_zero (S := S2048x256) hz,
    View.ld_unit_zero (S := S1x256) hz]
  rw [pay1_apply, pay5_apply, pay6_apply, pay3_eq, pay4_eq]
  rfl

/-- The second output's buffer after the body at an entry: the output of the new cell state. -/
theorem out16_apply (x0 x1 : Vec Ideal S512x2048 .bf16) (x2 : Vec Ideal S512x256 .f32)
    (x3 x4 x5 x6 x7 x8 x9 x10 : Vec Ideal S2048x256 .bf16) (x11 x12 x13 x14 : Vec Ideal S1x256 .f32) (j : S512x256.Idx) :
    out0_16 x0 x1 x2 x3 x4 x5 x6 x7 x8 x9 x10 x11 x12 x13 x14 j
      = cellY (blkProd x0 x5 j) (blkProd x1 x9 j) (x13 (biasCol j))
          (cellC (blkProd x0 x3 j) (blkProd x1 x7 j) (x11 (biasCol j)) (blkProd x0 x4 j) (blkProd x1 x8 j) (x12 (biasCol j))
            (blkProd x0 x6 j) (blkProd x1 x10 j) (x14 (biasCol j)) (x2 j)) := by
  unfold out0_16
  rw [View.canon_unit_zero hz]
  simp only [View.ld_unit_zero (S := S512x2048) hz, View.ld_unit_zero (S := S512x256) hz, View.ld_unit_zero (S := S2048x256) hz,
    View.ld_unit_zero (S := S1x256) hz]
  rw [pay2_apply, pay1_apply, pay5_apply, pay6_apply, pay7_apply, pay8_eq, pay3_eq, pay4_eq]
  rfl

/-! ## What a point writes back -/

/-- The new cell state of the arrays the region finds. -/
abbrev G15 (c : Dev nD) : S4096x2048.Idx → EReal :=
  cNew (V m c main_v0) (V m c main_arg1) (V m c main_v1) (V m c main_v2) (V m c main_v5) (V m c main_v3)
    (V m c main_v6) (V m c main_v9) (V m c main_v7) (V m c main_arg11) (V m c main_arg12) (V m c main_arg13)

/-- The output of the arrays the region finds. -/
abbrev G16 (c : Dev nD) : S4096x2048.Idx → EReal :=
  yOut (V m c main_v0) (V m c main_arg1) (V m c main_v1) (V m c main_v2) (V m c main_v5) (V m c main_v3) (V m c main_v4)
    (V m c main_v6) (V m c main_v9) (V m c main_v7) (V m c main_v8) (V m c main_arg11) (V m c main_arg12) (V m c main_arg13) (V m c main_arg14)

/-- The cell function at a landed entry, from the point's blocks. -/
theorem cell_lands (c : Dev nD) (t : Fin cfg0.N) (j : S512x256.Idx) (i : S4096x2048.Idx) (h : Lands t j i) :
    cellC (blkProd (iblk m c 0 t) (iblk m c 3 t) j) (blkProd (iblk m c 1 t) (iblk m c 7 t) j) (iblk m c 11 t (biasCol j))
        (blkProd (iblk m c 0 t) (iblk m c 4 t) j) (blkProd (iblk m c 1 t) (iblk m c 8 t) j) (iblk m c 12 t (biasCol j))
        (blkProd (iblk m c 0 t) (iblk m c 6 t) j) (blkProd (iblk m c 1 t) (iblk m c 10 t) j) (iblk m c 14 t (biasCol j)) (iblk m c 2 t j)
      = G15 m c i := by
  rw [blkProd_eq (V m c main_v0) (V m c main_v2) (iblk m c 0 t) (iblk m c 3 t) j i (fun k => read0 m c t j i h k) (fun k => read3 m c t j i h k),
    blkProd_eq (V m c main_v1) (V m c main_v6) (iblk m c 1 t) (iblk m c 7 t) j i (fun k => read1 m c t j i h k) (fun k => read7 m c t j i h k),
    blkProd_eq (V m c main_v0) (V m c main_v3) (iblk m c 0 t) (iblk m c 4 t) j i (fun k => read0 m c t j i h k) (fun k => read4 m c t j i h k),
    blkProd_eq (V m c main_v1) (V m c main_v7) (iblk m c 1 t) (iblk m c 8 t) j i (fun k => read1 m c t j i h k) (fun k => read8 m c t j i h k),
    blkProd_eq (V m c main_v0) (V m c main_v5) (iblk m c 0 t) (iblk m c 6 t) j i (fun k => read0 m c t j i h k) (fun k => read6 m c t j i h k),
    blkProd_eq (V m c main_v1) (V m c main_v9) (iblk m c 1 t) (iblk m c 10 t) j i (fun k => read1 m c t j i h k) (fun k => read10 m c t j i h k),
    read11 m c t j i h, read12 m c t j i h, read14 m c t j i h, read2 m c t j i h]
  rfl

/-- WHAT POINT `t` WRITES BACK to the first output is block `t` of the new cell state. -/
theorem flushed15_eq (c : Dev nD) (t : Fin cfg0.N) :
    (dats m 0 c).flushed 15 t = ((cfg0.win 15).blk t).view.read (Elt Ideal) (G15 m c) := by
  rw [Value.flushed15]
  funext j
  show out0_15 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) j
    = G15 m c (((cfg0.win 15).blk t).view.emb j)
  refine (out15_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) j).trans ?_
  exact cell_lands m c t j _ (lands15 t j)

/-- WHAT POINT `t` WRITES BACK to the second output is block `t` of the output. -/
theorem flushed16_eq (c : Dev nD) (t : Fin cfg0.N) :
    (dats m 0 c).flushed 16 t = ((cfg0.win 16).blk t).view.read (Elt Ideal) (G16 m c) := by
  rw [Value.flushed16]
  funext j
  show out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) j
    = G16 m c (((cfg0.win 16).blk t).view.emb j)
  refine (out16_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) j).trans ?_
  have h := lands16 t j
  rw [cell_lands m c t j _ h,
    blkProd_eq (V m c main_v0) (V m c main_v4) (iblk m c 0 t) (iblk m c 5 t) j _ (fun k => read0 m c t j _ h k) (fun k => read5 m c t j _ h k),
    blkProd_eq (V m c main_v1) (V m c main_v8) (iblk m c 1 t) (iblk m c 9 t) j _ (fun k => read1 m c t j _ h k) (fun k => read9 m c t j _ h k),
    read13 m c t j _ h]
  rfl

/-! ## The output blocks tile the arrays -/

theorem mem_blk15 (t : Fin cfg0.N) (i : S4096x2048.Idx) :
    i ∈ ((cfg0.win 15).blk t).view.set ↔ ∀ a : Fin 2, win0_15.index t a * S512x256.size a ≤ (i a).val ∧ (i a).val < win0_15.index t a * S512x256.size a + S512x256.size a := by
  show i ∈ ((View.whole main_v10_0).slice (win0_15.rect t)).set ↔ _
  rw [View.set_slice_whole, Rect.mem_set_unit]
  exact Iff.rfl

theorem mem_blk16 (t : Fin cfg0.N) (i : S4096x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v10_1).slice (win0_16.rect t)).set ↔ _
  rw [View.set_slice_whole, Rect.mem_set_unit]
  exact Iff.rfl

/-- Every entry of the first output is in the block of the point at row block `r / 512`, column block `c / 256`. -/
theorem cover15 (i : S4096x2048.Idx) : ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- And of the second output. -/
theorem cover16 (i : S4096x2048.Idx) : ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  obtain ⟨_, _, e2, e3⟩ := idx_cell t
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-! ## The bf16 copies made before the call are the arguments -/

theorem V_v0 (c : Dev nD) : (V m c main_v0 : S4096x2048.Idx → EReal) = m ((c : Thread nD τ).loc main_arg0) := by
  dsimp only [V, hostOps0]; after_results; rfl
theorem V_v1 (c : Dev nD) : (V m c main_v1 : S4096x2048.Idx → EReal) = m ((c : Thread nD τ).loc main_arg2) := by
  dsimp only [V, hostOps0]; after_results; rfl
theorem V_v2 (c : Dev nD) : (V m c main_v2 : S2048x2048.Idx → EReal) = m ((c : Thread nD τ).loc main_arg3) := by
  dsimp only [V, hostOps0]; after_results; rfl
theorem V_v3 (c : Dev nD) : (V m c main_v3 : S2048x2048.Idx → EReal) = m ((c : Thread nD τ).loc main_arg5) := by
  dsimp only [V, hostOps0]; after_results; rfl
theorem V_v4 (c : Dev nD) : (V m c main_v4 : S2048x2048.Idx → EReal) = m ((c : Thread nD τ).loc main_arg6) := by
  dsimp only [V, hostOps0]; after_results; rfl
theorem V_v5 (c : Dev nD) : (V m c main_v5 : S2048x2048.Idx → EReal) = m ((c : Thread nD τ).loc main_arg4) := by
  dsimp only [V, hostOps0]; after_results; rfl
theorem V_v6 (c : Dev nD) : (V m c main_v6 : S2048x2048.Idx → EReal) = m ((c : Thread nD τ).loc main_arg7) := by
  dsimp only [V, hostOps0]; after_results; rfl
theorem V_v7 (c : Dev nD) : (V m c main_v7 : S2048x2048.Idx → EReal) = m ((c : Thread nD τ).loc main_arg9) := by
  dsimp only [V, hostOps0]; after_results; rfl
theorem V_v8 (c : Dev nD) : (V m c main_v8 : S2048x2048.Idx → EReal) = m ((c : Thread nD τ).loc main_arg10) := by
  dsimp only [V, hostOps0]; after_results; rfl
theorem V_v9 (c : Dev nD) : (V m c main_v9 : S2048x2048.Idx → EReal) = m ((c : Thread nD τ).loc main_arg8) := by
  dsimp only [V, hostOps0]; after_results; rfl

/-! ## The result arrays -/

/-- The first result array after the run is the new cell state of the argument arrays. -/
theorem final15 (c : Dev nD) : (dats m 0 c).arrAt 15 cfg0.N
    = cNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg7)) (m ((c : Thread nD τ).loc main_arg8)) (m ((c : Thread nD τ).loc main_arg9))
        (m ((c : Thread nD τ).loc main_arg11)) (m ((c : Thread nD τ).loc main_arg12)) (m ((c : Thread nD τ).loc main_arg13)) := by
  refine ((dats m 0 c).arrAt_eq_of_cover 15 (G15 m c) (fun t _ => flushed15_eq m c t) cover15).trans ?_
  show cNew (V m c main_v0) (V m c main_arg1) (V m c main_v1) (V m c main_v2) (V m c main_v5) (V m c main_v3)
    (V m c main_v6) (V m c main_v9) (V m c main_v7) (V m c main_arg11) (V m c main_arg12) (V m c main_arg13) = _
  rw [V_v0, V_v1, V_v2, V_v3, V_v5, V_v6, V_v7, V_v9, V_main_arg1, V_main_arg11, V_main_arg12, V_main_arg13]

/-- The second result array after the run is the output of the argument arrays. -/
theorem final16 (c : Dev nD) : (dats m 0 c).arrAt 16 cfg0.N
    = yOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13)) (m ((c : Thread nD τ).loc main_arg14)) := by
  refine ((dats m 0 c).arrAt_eq_of_cover 16 (G16 m c) (fun t _ => flushed16_eq m c t) cover16).trans ?_
  show yOut (V m c main_v0) (V m c main_arg1) (V m c main_v1) (V m c main_v2) (V m c main_v5) (V m c main_v3) (V m c main_v4)
    (V m c main_v6) (V m c main_v9) (V m c main_v7) (V m c main_v8) (V m c main_arg11) (V m c main_arg12) (V m c main_arg13) (V m c main_arg14) = _
  rw [V_v0, V_v1, V_v2, V_v3, V_v4, V_v5, V_v6, V_v7, V_v8, V_v9, V_main_arg1, V_main_arg11, V_main_arg12, V_main_arg13, V_main_arg14]

/-! ## The run, read -/

/-- Every weakly fair execution of the idealized kernel terminates with its two result arrays at the cell
    function of the argument arrays, and the arguments as launched. -/
theorem run : θ_run defs (onTc (τ := τ) (main (F := Ideal))) ⟨m, fun _ => 0, ρ⟩ fun r => ∀ c : Dev nD,
      r.2.mem ((c : Thread nD τ).loc main_v10_0)
        = cNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg7)) (m ((c : Thread nD τ).loc main_arg8)) (m ((c : Thread nD τ).loc main_arg9))
            (m ((c : Thread nD τ).loc main_arg11)) (m ((c : Thread nD τ).loc main_arg12)) (m ((c : Thread nD τ).loc main_arg13))
      ∧ r.2.mem ((c : Thread nD τ).loc main_v10_1)
        = yOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5)) (m ((c : Thread nD τ).loc main_arg6))
            (m ((c : Thread nD τ).loc main_arg7)) (m ((c : Thread nD τ).loc main_arg8)) (m ((c : Thread nD τ).loc main_arg9)) (m ((c : Thread nD τ).loc main_arg10))
            (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final15 m c), (h c).2.1.trans (final16 m c), (h c).2.2⟩)
    (Value.run_blocks m ρ)

end Cert.KernelIdeal.CellArray

end
-- ==== Proof.lean ====
/-
  An LSTM cell step on the TPU against its jnp reference, over the extended reals.

  Both programs take a batch `X`, a hidden state `H`, a cell state `C` (each `[4096, 2048]`), eight
  `[2048, 2048]` weights and four `[1, 2048]` biases, and return the new cell state
      C' = tanh(pre_g) · σ(pre_i) + σ(pre_f) · C
  and the output `Y = σ(pre_o) · tanh(C')`, where each gate's pre-activation is `X·Wx + H·Wh + b`.
  The kernel tiles the result into 8 × 8 blocks of `[512, 256]`, contracts all 2048 columns inside one
  grid point, and feeds the matrix unit bf16 copies of `X`, `H` and the weights; over the extended reals
  a change of float format is the identity, a block product's entry is the same finite sum as the whole
  product's, and `tpu.logistic` is by definition the quotient `1 / (1 + e^(-z))` the reference spells
  out. The one difference left is the order of a pre-activation's three summands — the kernel adds the
  bias last, the reference between the two products — and addition on the extended reals is commutative
  and associative. So the two programs compute one function of their arguments (`Proof/LstmCell.lean`);
  no input needs to be finite for that, and the precondition is never opened.

  `Proof/RefIsCell.lean` reads the reference as that function, `Proof/CellBlock.lean` one grid point's
  stored values, `Proof/CellArray.lean` carries the blocks to the whole arrays. The idealization pass
  rewrote nothing in this kernel, so `preserves` has no conjunct.
-/
import proofs.«132140_j16458314678399_1_alg».proof.Defs
import proofs.«132140_j16458314678399_1_alg».proof.Proof.Gen.Kernel
import proofs.«132140_j16458314678399_1_alg».proof.Proof.Gen.Kernel.Skeleton
import proofs.«132140_j16458314678399_1_alg».proof.Proof.Gen.Kernel.Launch
import proofs.«132140_j16458314678399_1_alg».proof.Proof.Gen.Kernel.Points
import proofs.«132140_j16458314678399_1_alg».proof.Proof.Gen.Kernel.Frame
import proofs.«132140_j16458314678399_1_alg».proof.Proof.Gen.KernelIdeal
import proofs.«132140_j16458314678399_1_alg».proof.Proof.Gen.KernelIdeal.Skeleton
import proofs.«132140_j16458314678399_1_alg».proof.Proof.Gen.KernelIdeal.Launch
import proofs.«132140_j16458314678399_1_alg».proof.Proof.Gen.KernelIdeal.Points
import proofs.«132140_j16458314678399_1_alg».proof.Proof.Gen.KernelIdeal.Frame
import proofs.«132140_j16458314678399_1_alg».proof.Proof.Gen.ReferenceIdeal
import proofs.«132140_j16458314678399_1_alg».proof.Proof.Gen.Pre_finite_inputs
import proofs.«132140_j16458314678399_1_alg».proof.Proof.Gen.KernelIdeal.Value
import proofs.«132140_j16458314678399_1_alg».proof.Proof.Gen.ReferenceIdeal.Run
import proofs.«132140_j16458314678399_1_alg».proof.Proof.Gen.ReferenceIdeal.Read
import proofs.«132140_j16458314678399_1_alg».proof.Proof.LstmCell
import proofs.«132140_j16458314678399_1_alg».proof.Proof.RefIsCell
import proofs.«132140_j16458314678399_1_alg».proof.Proof.CellBlock
import proofs.«132140_j16458314678399_1_alg».proof.Proof.CellArray
import Idealize.ShloMosaic.Adequacy
import Idealize.ShloMosaic.Init

noncomputable section

namespace Cert.Proof

open Idealize.ShloMosaic Idealize.SL.Sem Cert.Kernel

/-- The word-level kernel terminates, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization pass recorded no rewrite. -/
theorem preserves : Cert.preserves_Kernel_KernelIdeal := trivial

/-- Run from memories that agree on the fifteen arguments, the idealized kernel ends with its two result
    arrays at the cell function of its arguments, and the reference ends with its two results at the same
    function of the same arguments. -/
theorem algebraic : Cert.algebraic_KernelIdeal_ReferenceIdeal := by
  intro m ρ m' ρ' _ hagree
  refine ⟨_, _, Cert.KernelIdeal.CellArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v41_eq, Cert.ReferenceIdeal.IsCell.ref_cNew, a0, a1, a2, a3, a4, a5, a7, a8, a9, a11, a12, a13]
  · obtain ⟨a0, a1, a2, a3, a4, a5, a6, a7, a8, a9, a10, a11, a12, a13, a14⟩ := hagree c
    rw [Cert.ReferenceIdeal.Read.val_main_v43_eq, Cert.ReferenceIdeal.IsCell.ref_yOut, a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
